-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S1x16384 : Shape := ⟨2, ![1, 16384]⟩
abbrev S2048x3 : Shape := ⟨2, ![2048, 3]⟩
abbrev S1024x3 : Shape := ⟨2, ![1024, 3]⟩
abbrev S1x2048 : Shape := ⟨2, ![1, 2048]⟩
abbrev S3x2048 : Shape := ⟨2, ![3, 2048]⟩
abbrev S2048 : Shape := ⟨1, ![2048]⟩
abbrev S1024 : Shape := ⟨1, ![1024]⟩
abbrev S1024x1 : Shape := ⟨2, ![1024, 1]⟩
abbrev S1024x2048 : Shape := ⟨2, ![1024, 2048]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S1x16384, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2048x3, .f32⟩
  | .local _ .vmem, ⟨1, _⟩ => ⟨S2048x3, .f32⟩
  | .local _ .vmem, ⟨2, _⟩ => ⟨S1024x3, .f32⟩
  | .local _ .vmem, ⟨3, _⟩ => ⟨S1024x3, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x3_S2048x3_0_0 : ∀ a, (![0, 0] : Fin 2 → Nat) a + S2048x3.size a ≤ S2048x3.size a
  h_S2048x3 : 0 < S2048x3.numel
  inb_S1024x3_S1024x3_0_0 : ∀ a, (![0, 0] : Fin 2 → Nat) a + S1024x3.size a ≤ S1024x3.size a
  h_S1024x3 : 0 < S1024x3.numel
  transposes_S2048x3_p1_0_S3x2048 : S2048x3.Transposes [1, 0] S3x2048
  reduces_S3x2048_S2048 : S3x2048.Reduces [0] S2048
  shapeCasts_S2048_S1x2048 : S2048.ShapeCasts S1x2048
  reduces_S1024x3_S1024 : S1024x3.Reduces [1] S1024
  shapeCasts_S1024_S1024x1 : S1024.ShapeCasts S1024x1
  broadcasts_S1024x1_S1024x2048 : S1024x1.Broadcasts S1024x2048
  broadcasts_S1x2048_S1024x2048 : S1x2048.Broadcasts S1024x2048
  reduces_S1024x2048_S2048 : S1024x2048.Reduces [0] S2048
  reducesTo_S1x16384_S_d0_1 : S1x16384.ReducesTo [0, 1] S_
  h_S_ : 0 < S_.numel
  dot_S1024x3_S3x2048_S1024x2048_1_0_0_1_n_n_wf : DotDims.WF S1024x3 S3x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S16384x3.size a
  hwx0_0 : ∀ i : grid0.Coords, EltTy.bits .f32 = 32 ∨ (Rect.block (s := S16384x3) S2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S16384x3.size a
  hwx0_1 : ∀ i : grid0.Coords, EltTy.bits .f32 = 32 ∨ (Rect.block (s := S16384x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)

variable [Facts₀]

def dot_S1024x3_S3x2048_S1024x2048_1_0_0_1_n_n : DotDims S1024x3 S3x2048 S1024x2048 where
  lhsContracting := [1]
  rhsContracting := [0]
  lhsNonContracting := [0]
  rhsNonContracting := [1]
  lhsBatch := []
  rhsBatch := []
  wf := dot_S1024x3_S3x2048_S1024x2048_1_0_0_1_n_n_wf

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S3x16384 : Shape := ⟨2, ![3, 16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 31
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x3, .f32⟩
  | .hbm, ⟨6, _⟩ => ⟨S_, .f32⟩
  | .hbm, ⟨7, _⟩ => ⟨S16384, .f32⟩
  | .hbm, ⟨8, _⟩ => ⟨S3x16384, .f32⟩
  | .hbm, ⟨9, _⟩ => ⟨S16384x16384, .f32⟩
  | .hbm, ⟨10, _⟩ => ⟨S16384x1, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  transposes_S16384x3_S3x16384_1_0 : S16384x3.Transposes [1, 0] S3x16384
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.ChamferSpec.lean ====
/-
  The mathematics both programs compute, stated once over the extended reals.

  For two clouds of 16384 points in three coordinates, `P` (the predictions) and `T` (the targets), the
  distance of a prediction `a` to a target `b` is taken through the expansion
  `sqrt (max ((|b|² + |a|²) - 2 · ⟨b, a⟩) 0)`; a prediction's nearest-target distance is the infimum of
  that over all targets, and the loss is the mean of the 16384 infima (times one).

  A running minimum over the targets taken 1024 at a time is described by the partial infimum `pmin`
  over the targets below a bound; one step of the running minimum extends the bound by 1024
  (`min_pmin_block`), by the universal property of an infimum: `c` is below it iff `c` is below every term.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A cloud of 16384 points with three coordinates each, over the extended reals. -/
abbrev Pts : Type := (⟨2, ![16384, 3]⟩ : Shape).Idx → EReal

/-- Point `i` of a cloud, as its three coordinates. -/
def row (X : Pts) (i : Fin 16384) : Fin 3 → EReal := fun d => X (ix2 i d)

/-- The distance of a prediction `a` to a target `b`: `sqrt (max ((|b|² + |a|²) - 2 · ⟨b, a⟩) 0)`,
    the literals `2` and `0` kept as the words both programs print. -/
def cell (a b : Fin 3 → EReal) : EReal :=
  Ideal.sqrt (max (((∑ d : Fin 3, b d * b d) + (∑ d : Fin 3, a d * a d))
      - Ideal.ofBits .f32 0x40000000#32 * (∑ d : Fin 3, b d * a d)) (Ideal.ofBits .f32 0x00000000#32))

/-- The least distance of prediction `i` to the targets whose number is below `N`. -/
def pmin (P T : Pts) (i : Fin 16384) (N : ℕ) : EReal :=
  ⨅ j : Fin 16384, ⨅ (_ : j.val < N), cell (row P i) (row T j)

/-- The least distance of prediction `i` to any target. -/
def rowmin (P T : Pts) (i : Fin 16384) : EReal := ⨅ j : Fin 16384, cell (row P i) (row T j)

/-- The loss: one times the mean of the nearest-target distances, the sum started from the zero word
    and divided by the word of 16384. -/
def loss (P T : Pts) : EReal :=
  Ideal.ofBits .f32 0x3F800000#32
    * Ideal.div (Ideal.ofBits .f32 0x00000000#32 + ∑ i : Fin 16384, rowmin P T i) (Ideal.ofBits .f32 0x46800000#32)

/-- The word of `+∞` denotes the top element. -/
theorem ofBits_inf : Ideal.ofBits .f32 0x7F800000#32 = (⊤ : EReal) := by simp [Ideal.ofBits, Ideal.ieee]

theorem le_pmin_iff (P T : Pts) (i : Fin 16384) (N : ℕ) (c : EReal) :
    c ≤ pmin P T i N ↔ ∀ j : Fin 16384, j.val < N → c ≤ cell (row P i) (row T j) := by
  unfold pmin
  simp only [le_iInf_iff]

theorem le_rowmin_iff (P T : Pts) (i : Fin 16384) (c : EReal) :
    c ≤ rowmin P T i ↔ ∀ j : Fin 16384, c ≤ cell (row P i) (row T j) := by
  unfold rowmin
  simp only [le_iInf_iff]

/-- Below no target the partial infimum is the top element. -/
theorem pmin_zero (P T : Pts) (i : Fin 16384) : pmin P T i 0 = ⊤ :=
  top_le_iff.mp ((le_pmin_iff P T i 0 ⊤).mpr fun j hj => absurd hj (Nat.not_lt_zero _))

/-- Below all 16384 targets it is the full infimum. -/
theorem pmin_full (P T : Pts) (i : Fin 16384) : pmin P T i 16384 = rowmin P T i :=
  eq_of_forall_le_iff fun c => by
    rw [le_pmin_iff, le_rowmin_iff]
    exact ⟨fun h j => h j j.isLt, fun h j _ => h j⟩

/-- ONE STEP of the running minimum: the partial infimum below `N`, met with the minimum (folded from the top
    element) of the distances to the next 1024 targets, is the partial infimum below `N + 1024`. -/
theorem min_pmin_block (P T : Pts) (i : Fin 16384) (N : ℕ) (hN : N + 1024 ≤ 16384) (blk : Fin 1024 → EReal)
    (hblk : ∀ r : Fin 1024, blk r = cell (row P i) (row T ⟨N + r.val, by have := r.isLt; omega⟩)) :
    min (pmin P T i N) ((Finset.univ : Finset (Fin 1024)).fold min ⊤ blk) = pmin P T i (N + 1024) :=
  eq_of_forall_le_iff fun c => by
    rw [le_min_iff, le_pmin_iff, le_pmin_iff, Finset.le_fold_min]
    constructor
    · rintro ⟨h1, -, h2⟩ j hj
      by_cases hlt : j.val < N
      · exact h1 j hlt
      · have hr : j.val - N < 1024 := by omega
        have e := h2 ⟨j.val - N, hr⟩ (Finset.mem_univ _)
        rw [hblk] at e
        have ej : (⟨N + (j.val - N), by omega⟩ : Fin 16384) = j := Fin.ext (by show N + (j.val - N) = j.val; omega)
        rw [ej] at e
        exact e
    · intro h
      refine ⟨fun j hj => h j (by omega), le_top, fun r _ => ?_⟩
      rw [hblk]
      exact h _ (by show N + r.val < N + 1024; have := r.isLt; omega)

end Cert.Chamfer

end
-- ==== Proof.RefValue.lean ====
/-
  The reference program read as the mathematics it computes.

  Read at an index (i, j), the reference's distance matrix is the distance of prediction i to target j
  (dist_apply): the two squared norms come in the other order and each product of the inner sum has its
  factors in the other order, which addition and multiplication of extended reals do not see.
  The row minimum, a fold of min from the top element over the second axis, is the infimum over the targets
  (rowmin_apply), by the universal property of both: c is below it iff c is below every term.
  The sum of the row minima over the rank-one index set is the sum over the 16384 predictions, and the last three
  operations are the words of the loss.
-/
import proofs.«159871_j48172353192475_1_alg».proof.Defs
import proofs.«159871_j48172353192475_1_alg».proof.Proof.Gen.ReferenceIdeal.Run
import proofs.«159871_j48172353192475_1_alg».proof.Proof.Gen.ReferenceIdeal.Read
import proofs.«159871_j48172353192475_1_alg».proof.Proof.ChamferSpec
import Idealize.ShloMosaic.PureOps.Reduce
import Idealize.ShloMosaic.PureOps.Ideal.Laws
import Idealize.ShloMosaic.Lib.ValueIdx
import Idealize.ShloMosaic.Lib.ValueIdxRank1

noncomputable section

namespace Cert.ReferenceIdeal.RefValue

open Cert.ReferenceIdeal Cert.ReferenceIdeal.Gen Cert.ReferenceIdeal.Read Idealize.ShloMosaic
  Idealize.ShloMosaic.ValueIdx

/-! ## The operands' indices at (i, j) -/

/-- The left operand of the inner product at (i, j), term k: point i, coordinate k. -/
private theorem lidx_at (i j : Fin 16384) (k : Fin 3) : lidx_main_v5 (ix2 i j) k = ix2 i k := by
  funext a; match a with | ⟨0, _⟩ => rfl | ⟨1, _⟩ => rfl

/-- The right operand, read through the transposition: point j, coordinate k. -/
private theorem ridx_at (i j : Fin 16384) (k : Fin 3) : idx_main_v4 (ridx_main_v5 (ix2 i j) k) = ix2 j k := by
  funext a; match a with | ⟨0, _⟩ => rfl | ⟨1, _⟩ => rfl

/-- The squared norm broadcast along the rows, at (i, j), term k: point i, coordinate k. -/
private theorem aidx_at (i j : Fin 16384) (k : Fin 3) :
    idx_main_v1 (idx_main_v6 (idx_main_v8 (ix2 i j))) k = ix2 i k := by
  funext a; match a with | ⟨0, _⟩ => rfl | ⟨1, _⟩ => rfl

/-- The squared norm broadcast along the columns, at (i, j), term k: point j, coordinate k. -/
private theorem bidx_at (i j : Fin 16384) (k : Fin 3) :
    idx_main_v3 (idx_main_v7 (idx_main_v9 (ix2 i j))) k = ix2 j k := by
  funext a; match a with | ⟨0, _⟩ => rfl | ⟨1, _⟩ => rfl

/-! ## The distance matrix -/

/-- Entry (i, j) of the distance matrix is the distance of prediction i to target j. -/
theorem dist_apply (x0 x1 : (⟨S16384x3, .f32⟩ : BufTy).Contents (Elt Ideal)) (i j : Fin 16384) :
    val_main_v16 (F := Ideal) x0 x1 (ix2 i j) = Cert.Chamfer.cell (Cert.Chamfer.row x0 i) (Cert.Chamfer.row x1 j) := by
  rw [val_main_v16_apply, val_main_v15_apply, val_main_v13_apply, val_main_v14_apply, val_main_cst_2_apply,
    val_main_v10_apply, val_main_v12_apply, val_main_v11_apply, val_main_cst_1_apply, val_main_v5_apply,
    val_main_v8_apply, val_main_v6_apply, val_main_v1_apply, val_main_v9_apply, val_main_v7_apply, val_main_v3_apply,
    val_main_cst_apply, val_main_cst_0_apply]
  simp only [val_main_v0_apply, val_main_v2_apply, val_main_v4_apply, lidx_at, ridx_at, aidx_at, bidx_at,
    Ideal.hostUnary_sqrt_def, Ideal.maximumf_def, Ideal.subf_def, Ideal.addf_def, Ideal.mulf_def, Ideal.ofBits_def]
  unfold Cert.Chamfer.cell Cert.Chamfer.row
  simp only [Ideal.ofBits_zero_f32, zero_add]
  have e : (∑ k : Fin 3, x0 (ix2 i k) * x1 (ix2 j k)) = ∑ d : Fin 3, x1 (ix2 j d) * x0 (ix2 i d) :=
    Finset.sum_congr rfl fun d _ => mul_comm _ _
  rw [e, add_comm]

/-! ## The row minimum -/

/-- Target-row i of the matrix index set, with column k put back, is (i, k). -/
private theorem lift_at (h : S16384x16384.Reduces [1] S16384) (i : Fin 16384) (k : Fin (S16384x16384.size 1)) :
    h.lift (ix1 i) k = ix2 i (⟨k.val, k.isLt⟩ : Fin 16384) := by
  funext c; apply Fin.ext
  match c with | ⟨0, _⟩ => rfl | ⟨1, _⟩ => rfl

/-- The fold of min from the top element along row i is the infimum of the distances of prediction i. -/
theorem rowmin_apply (x0 x1 : (⟨S16384x3, .f32⟩ : BufTy).Contents (Elt Ideal)) (i : Fin 16384) :
    val_main_v17 (F := Ideal) x0 x1 (ix1 i) = Cert.Chamfer.rowmin x0 x1 i := by
  have h : S16384x16384.Reduces [1] S16384 := by decide
  unfold val_main_v17
  rw [Host.reduce_eq_fold_single FloatOps.minimumf _ _ reducesTo_S16384x16384_S16384_d1 h h_S_ (ix1 i)]
  refine eq_of_forall_le_iff fun c => ?_
  rw [Cert.Chamfer.le_rowmin_iff]
  show c ≤ Finset.fold min _ _ _ ↔ _
  rw [Finset.le_fold_min]
  constructor
  · rintro ⟨-, h2⟩ j
    have e := h2 (⟨j.val, j.isLt⟩ : Fin (S16384x16384.size 1)) (Finset.mem_univ _)
    rw [Function.comp_apply, lift_at, dist_apply] at e
    exact e
  · intro hall
    refine ⟨?_, fun k _ => ?_⟩
    · rw [val_main_cst_3_apply, Ideal.ofBits_def, Cert.Chamfer.ofBits_inf]
      exact le_top
    · rw [Function.comp_apply, lift_at, dist_apply]
      exact hall _

/-! ## The total and the loss -/

/-- The sum of the row minima over the rank-one index set is the sum over the predictions. -/
theorem total_apply (x0 x1 : (⟨S16384x3, .f32⟩ : BufTy).Contents (Elt Ideal)) :
    (∑ j : S16384.Idx, val_main_v17 (F := Ideal) x0 x1 j) = ∑ i : Fin 16384, Cert.Chamfer.rowmin x0 x1 i := by
  rw [← Equiv.sum_comp (idxEquiv1 (n := 16384)).symm (val_main_v17 (F := Ideal) x0 x1)]
  exact Finset.sum_congr rfl fun i _ => rowmin_apply x0 x1 i

/-- The reference's result is the loss. -/
theorem result_eq (x0 x1 : (⟨Cert.ReferenceIdeal.S16384x3, .f32⟩ : BufTy).Contents (Elt Ideal)) :
    Cert.ReferenceIdeal.Read.val_main_v20 (F := Ideal) x0 x1 = fun _ => Cert.Chamfer.loss x0 x1 := by
  funext i
  rw [val_main_v20_apply, val_main_v19_apply, val_main_v18_apply, val_main_cst_6_apply, val_main_cst_5_apply,
    val_main_cst_4_apply, total_apply]
  rfl

end Cert.ReferenceIdeal.RefValue

end
-- ==== Proof.KernelPieces.lean ====
/-
  What the kernel body leaves, case by case, read back as values.

  The body keeps a running minimum in a scratch block of 2048 lanes. Written as one pure function, the update is
  `k0_pay2 x0 x1 acc`: from the block `x0` of 2048 predictions, the block `x1` of 1024 targets and the scratch's
  contents `acc`, the lane-wise minimum of `acc` and of the distances from each prediction to the 1024 targets.
  At the first of a prediction block's sixteen points the scratch is reset to `+∞` (`k0_pay1`) before the update;
  at the last the updated scratch is also copied to the output block. Each lemma below says so of the pieces the
  body's run stored, at any float instance.
-/
import proofs.«159871_j48172353192475_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- At a point that begins a sweep over the targets (the first of its sixteen) the running minimum is first reset
    to the `+∞` block and then met with this point's block minimum: what the scratch holds afterwards is the
    update of the reset block. -/
theorem sout_A (c : Dev nD) (i : grid0.Coords) (a2 : Memref sig .tc .vmem S2048x3 .f32) (h2 : a2.IsWhole)
    (a3 : Memref sig .tc .vmem S1024x3 .f32) (h3 : a3.IsWhole) (a4 : Memref sig .tc .vmem S1x2048 .f32) (h4 : a4.IsWhole)
    (a5 : Memref sig .tc .vmem S1x2048 .f32) (h5 : a5.IsWhole) (hc0 : cond0_0 i) (hc1 : ¬cond0_1 i)
    (x0 : Vec F S2048x3 .f32) (x1 : Vec F S1024x3 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x2048) hz, View.readCov_unit_zero (S := S1x2048) _ hz]
  simp only [View.readAt_eq_ld, h2.read_unread, h3.read_unread, View.ld_unit_zero (S := S2048x3) hz,
    View.ld_unit_zero (S := S1024x3) hz]

/-- At a point in the middle of a sweep the scratch, holding `xs`, is left at the update of `xs`. -/
theorem sout_B (c : Dev nD) (i : grid0.Coords) (a2 : Memref sig .tc .vmem S2048x3 .f32) (h2 : a2.IsWhole)
    (a3 : Memref sig .tc .vmem S1024x3 .f32) (h3 : a3.IsWhole) (a4 : Memref sig .tc .vmem S1x2048 .f32) (h4 : a4.IsWhole)
    (a5 : Memref sig .tc .vmem S1x2048 .f32) (h5 : a5.IsWhole) (hc0 : ¬cond0_0 i) (hc1 : ¬cond0_1 i)
    (x0 : Vec F S2048x3 .f32) (x1 : Vec F S1024x3 .f32) (xs : Vec F S1x2048 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz]
  simp only [View.readAt_eq_ld, h2.read_unread, h3.read_unread, h5.read_unread, View.ld_unit_zero (S := S2048x3) hz,
    View.ld_unit_zero (S := S1024x3) hz, View.ld_unit_zero (S := S1x2048) hz]

/-- At the last point of a sweep the scratch, holding `xs`, is likewise left at the update of `xs`, -/
theorem sout_C (c : Dev nD) (i : grid0.Coords) (a2 : Memref sig .tc .vmem S2048x3 .f32) (h2 : a2.IsWhole)
    (a3 : Memref sig .tc .vmem S1024x3 .f32) (h3 : a3.IsWhole) (a4 : Memref sig .tc .vmem S1x2048 .f32) (h4 : a4.IsWhole)
    (a5 : Memref sig .tc .vmem S1x2048 .f32) (h5 : a5.IsWhole) (hc0 : ¬cond0_0 i) (hc1 : cond0_1 i)
    (x0 : Vec F S2048x3 .f32) (x1 : Vec F S1024x3 .f32) (xs : Vec F S1x2048 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S2048x3) hz,
    View.ld_unit_zero (S := S1024x3) hz, View.ld_unit_zero (S := S1x2048) hz]

/-- and the output block receives a copy of the updated scratch. -/
theorem out_C (c : Dev nD) (i : grid0.Coords) (a2 : Memref sig .tc .vmem S2048x3 .f32) (h2 : a2.IsWhole)
    (a3 : Memref sig .tc .vmem S1024x3 .f32) (h3 : a3.IsWhole) (a4 : Memref sig .tc .vmem S1x2048 .f32) (h4 : a4.IsWhole)
    (a5 : Memref sig .tc .vmem S1x2048 .f32) (h5 : a5.IsWhole) (hc0 : ¬cond0_0 i) (hc1 : cond0_1 i)
    (x0 : Vec F S2048x3 .f32) (x1 : Vec F S1024x3 .f32) (xs : Vec F S1x2048 .f32) :
    out0_C_2 c i a2 h2 a3 h3 a4 h4 a5 h5 hc0 hc1 x0 x1 xs = k0_pay2 x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S1x2048) _ hz]
  simp only [View.readAt_eq_ld, h2.read_unread, h3.read_unread, h5.read_unread, View.ld_unit_zero (S := S2048x3) hz,
    View.ld_unit_zero (S := S1024x3) hz, View.ld_unit_zero (S := S1x2048) hz]

end Cert.KernelIdeal.Pieces

end
-- ==== Proof.KernelPayload.lean ====
/-
  The arithmetic of one grid step, read at an index.

  A step holds a block of 2048 predictions, a block of 1024 targets and the running minimum of the 2048
  predictions. It forms, for every target row r and prediction column q of the block, the distance
  sqrt (max ((|t_r|² + |p_q|²) - 2 · ⟨t_r, p_q⟩) 0), takes for every q the least of the 1024 distances,
  and meets it with the running minimum. Each operation that moves indices is read at an index by one
  small lemma; the elementwise operations read through at the extended reals by definition; the last
  theorem assembles them.
-/
import proofs.«159871_j48172353192475_1_alg».proof.Proof.Gen.KernelIdeal.Skeleton
import proofs.«159871_j48172353192475_1_alg».proof.Proof.ChamferSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## Two layout operations read at an index: a trailing unit axis -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three reductions and the product, read at an index -/

/-- The sum over the three coordinates of a [3, 2048] array, at column q. -/
theorem colsum_apply (y : FVec Ideal S3x2048 .f32) (q : Fin 2048) :
    multiReduction (F := Ideal) .add [0] S2048 y 0x00000000#32 reduces_S3x2048_S2048 (.inl rfl) rfl (ix1 q)
      = ∑ d : Fin 3, y (ix2 d q) :=
  (Ideal.multiReduction_add_single y _ reduces_S3x2048_S2048 _ _ (ix1 q)).trans
    (Finset.sum_congr rfl fun d _ => congrArg y (funext fun c => Fin.ext (by
      match c with
      | ⟨0, _⟩ => rfl
      | ⟨1, _⟩ => rfl)))

/-- The sum over the three coordinates of a [1024, 3] array, at row r. -/
theorem rowsum_apply (y : FVec Ideal S1024x3 .f32) (r : Fin 1024) :
    multiReduction (F := Ideal) .add [1] S1024 y 0x00000000#32 reduces_S1024x3_S1024 (.inl rfl) rfl (ix1 r)
      = ∑ d : Fin 3, y (ix2 r d) :=
  (Ideal.multiReduction_add_single y _ reduces_S1024x3_S1024 _ _ (ix1 r)).trans
    (Finset.sum_congr rfl fun d _ => congrArg y (funext fun c => Fin.ext (by
      match c with
      | ⟨0, _⟩ => rfl
      | ⟨1, _⟩ => rfl)))

/-- The least over the 1024 rows of a [1024, 2048] array, at column q, folded from the top element. -/
theorem colmin_apply (y : FVec Ideal S1024x2048 .f32) (q : Fin 2048) :
    multiReduction (F := Ideal) .minimumf [0] S2048 y 0x7F800000#32 reduces_S1024x2048_S2048 (.inl rfl) rfl (ix1 q)
      = (Finset.univ : Finset (Fin 1024)).fold min ⊤ (fun r : Fin 1024 => y (ix2 r q)) := by
  refine (multiReduction_minimumf_eq_fold y _ reduces_S1024x2048_S2048 _ _ (ix1 q)).trans ?_
  refine (reduces_S1024x2048_S2048.fold_filter_drop_single _ _ y (ix1 q)).trans ?_
  show (Finset.univ : Finset (Fin 1024)).fold min (Ideal.ofBits .f32 0x7F800000#32)
      (y ∘ reduces_S1024x2048_S2048.lift (ix1 q)) = _
  rw [Cert.Chamfer.ofBits_inf]
  have e : (y ∘ reduces_S1024x2048_S2048.lift (ix1 q)) = fun r : Fin 1024 => y (ix2 r q) :=
    funext fun r => congrArg y (funext fun c => Fin.ext (by
      match c with
      | ⟨0, _⟩ => rfl
      | ⟨1, _⟩ => rfl))
  rw [e]
  rfl

/-- The operand indices of the product at output index i and contraction index k: (i 0, k) on the left … -/
theorem lhs_dot_0 (i : S1024x2048.Idx) (k : dot_S1024x3_S3x2048_S1024x2048_1_0_0_1_n_n.contr.Idx) :
    (dot_S1024x3_S3x2048_S1024x2048_1_0_0_1_n_n.lhsIdx i k 0).val = (i 0).val := by
  unfold DotDims.lhsIdx
  rw [dif_neg (show ¬(0 : Fin S1024x3.rank) ∈ dot_S1024x3_S3x2048_S1024x2048_1_0_0_1_n_n.lhsBatch by decide), dif_pos (show (0 : Fin S1024x3.rank) ∈ dot_S1024x3_S3x2048_S1024x2048_1_0_0_1_n_n.lhsNonContracting by decide)]
  rfl
theorem lhs_dot_1 (i : S1024x2048.Idx) (k : dot_S1024x3_S3x2048_S1024x2048_1_0_0_1_n_n.contr.Idx) :
    (dot_S1024x3_S3x2048_S1024x2048_1_0_0_1_n_n.lhsIdx i k 1).val = (k ⟨0, by decide⟩).val :=
  dot_S1024x3_S3x2048_S1024x2048_1_0_0_1_n_n.lhsIdx_val_of_single rfl i k
/-- … and (k, i 1) on the right. -/
theorem rhs_dot_0 (i : S1024x2048.Idx) (k : dot_S1024x3_S3x2048_S1024x2048_1_0_0_1_n_n.contr.Idx) :
    (dot_S1024x3_S3x2048_S1024x2048_1_0_0_1_n_n.rhsIdx i k 0).val = (k ⟨0, by decide⟩).val :=
  dot_S1024x3_S3x2048_S1024x2048_1_0_0_1_n_n.rhsIdx_val_of_single rfl i k
theorem rhs_dot_1 (i : S1024x2048.Idx) (k : dot_S1024x3_S3x2048_S1024x2048_1_0_0_1_n_n.contr.Idx) :
    (dot_S1024x3_S3x2048_S1024x2048_1_0_0_1_n_n.rhsIdx i k 1).val = (i 1).val := by
  unfold DotDims.rhsIdx
  rw [dif_neg (show ¬(1 : Fin S3x2048.rank) ∈ dot_S1024x3_S3x2048_S1024x2048_1_0_0_1_n_n.rhsBatch by decide), dif_pos (show (1 : Fin S3x2048.rank) ∈ dot_S1024x3_S3x2048_S1024x2048_1_0_0_1_n_n.rhsNonContracting by decide)]
  rfl

/-- The product of a [1024, 3] and a [3, 2048] array into the zero array, at (r, q): the sum over the
    three coordinates of the products. -/
theorem dot_apply (x : FVec Ideal S1024x3 .f32) (y : FVec Ideal S3x2048 .f32) (r : Fin 1024) (q : Fin 2048) :
    matmul (F := Ideal) dot_S1024x3_S3x2048_S1024x2048_1_0_0_1_n_n (some .fp32) x y
        (constant S1024x2048 .f32 0x00000000#32) (ix2 r q)
      = ∑ k : Fin 3, x (ix2 r k) * y (ix2 k q) := by
  simp only [matmul]
  rw [Ideal.matmul_constant_zero_apply, ← Equiv.sum_comp (ValueIdx.contrEquiv1 dot_S1024x3_S3x2048_S1024x2048_1_0_0_1_n_n 3 rfl rfl).symm]
  refine Finset.sum_congr rfl fun k _ => ?_
  have hk := ValueIdx.contrEquiv1_symm_val dot_S1024x3_S3x2048_S1024x2048_1_0_0_1_n_n 3 rfl rfl k
  have el : dot_S1024x3_S3x2048_S1024x2048_1_0_0_1_n_n.lhsIdx (ix2 r q) ((ValueIdx.contrEquiv1 dot_S1024x3_S3x2048_S1024x2048_1_0_0_1_n_n 3 rfl rfl).symm k) = ix2 r k := funext fun a => Fin.ext (by
    match a with
    | ⟨0, _⟩ => exact lhs_dot_0 _ _
    | ⟨1, _⟩ => exact (lhs_dot_1 _ _).trans hk)
  have er : dot_S1024x3_S3x2048_S1024x2048_1_0_0_1_n_n.rhsIdx (ix2 r q) ((ValueIdx.contrEquiv1 dot_S1024x3_S3x2048_S1024x2048_1_0_0_1_n_n 3 rfl rfl).symm k) = ix2 k q := funext fun a => Fin.ext (by
    match a with
    | ⟨0, _⟩ => exact (rhs_dot_0 _ _).trans hk
    | ⟨1, _⟩ => exact rhs_dot_1 _ _)
  rw [el, er]

/-! ## The two payloads -/

/-- The reset writes the top element everywhere. -/
theorem pay1_apply (u : Fin 1) (q : Fin 2048) :
    k0_pay1 (F := Ideal) (ix2 u q) = (⊤ : EReal) := by
  unfold k0_pay1
  simp only [shapeCast_self]
  exact Cert.Chamfer.ofBits_inf

/-- One step of the running minimum: at prediction q it is the running minimum met with the least, over the
    1024 targets of the block, of the distance of prediction q to the target. -/
theorem pay2_apply (x0 : Vec Ideal S2048x3 .f32) (x1 : Vec Ideal S1024x3 .f32) (acc : Vec Ideal S1x2048 .f32)
    (u : Fin 1) (q : Fin 2048) :
    k0_pay2 (F := Ideal) x0 x1 acc (ix2 u q)
      = min (acc (ix2 u q))
          ((Finset.univ : Finset (Fin 1024)).fold min ⊤
            (fun r : Fin 1024 => Cert.Chamfer.cell (fun d : Fin 3 => x0 (ix2 q d)) (fun d : Fin 3 => x1 (ix2 r d)))) := by
  unfold k0_pay2
  simp only [shapeCast_self]
  rw [minimumf_apply, shapeCast_a_1a_apply, colmin_apply]
  refine congrArg (min _) (congrArg (fun f => Finset.fold min ⊤ f Finset.univ) (funext fun r => ?_))
  show Ideal.sqrt (max ((broadcastTo S1024x2048 _ broadcasts_S1024x1_S1024x2048 (ix2 r q)
      + broadcastTo S1024x2048 _ broadcasts_S1x2048_S1024x2048 (ix2 r q))
      - Ideal.ofBits .f32 0x40000000#32 * matmul (F := Ideal) _ _ _ _ _ (ix2 r q)) (Ideal.ofBits .f32 0x00000000#32)) = _
  rw [broadcastTo_a1_ab_apply, broadcastTo_1b_ab_apply, shapeCast_a_a1_apply, shapeCast_a_1a_apply, rowsum_apply,
    colsum_apply, dot_apply]
  unfold Cert.Chamfer.cell
  have ht : ∀ d : Fin 3, transpose S3x2048 [1, 0] x0 transposes_S2048x3_p1_0_S3x2048 (ix2 d q) = x0 (ix2 q d) :=
    fun d => transpose_ix2_apply x0 transposes_S2048x3_p1_0_S3x2048 d q
  simp only [mulf_apply, ht]

end Cert.KernelIdeal.Payload

end
-- ==== Proof.KernelInv.lean ====
/-
  The running minimum over the grid, and what the output blocks receive.

  The grid has 8 × 16 points, numbered `n = 16·I + J`: point `n` stages the block `I` of 2048 predictions and the block
  `J` of 1024 targets. Within a sweep `J = 0 … 15` the scratch carries, lane by lane, the least distance of a prediction
  of block `I` to the targets seen so far; the first point of a sweep starts it from `+∞`, and the last copies it to
  the output block. By induction on the point, after point `n` lane `q` holds the least distance of prediction
  `2048·I + q` to the targets below `1024·(J + 1)`; at `J = 15` that is the least distance to all the targets.
-/
import proofs.«159871_j48172353192475_1_alg».proof.Proof.KernelPieces
import proofs.«159871_j48172353192475_1_alg».proof.Proof.KernelPayload
import proofs.«159871_j48172353192475_1_alg».proof.Proof.ChamferSpec
import Idealize.ShloMosaic.Lib.Pipeline.Value
import Idealize.ShloMosaic.Lib.ValueIdx

noncomputable section

namespace Cert.KernelIdeal.Inv

open Cert.KernelIdeal Cert.KernelIdeal.Gen Cert.Chamfer
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The predictions and the targets as the region finds them. -/
abbrev Parr (c : Dev nD) : Pts := V m c main_arg0
abbrev Tarr (c : Dev nD) : Pts := V m c main_arg1

/-- The block of 2048 predictions and the block of 1024 targets staged at grid point `t`. -/
abbrev pblk (c : Dev nD) (t : Fin cfg0.N) : Vec Ideal S2048x3 .f32 := iblk m c 0 t
abbrev tblk (c : Dev nD) (t : Fin cfg0.N) : Vec Ideal S1024x3 .f32 := iblk m c 1 t

/-- Grid point `n` works on prediction block `n / 16` and target block `n % 16`: the number of lane `q`'s
    prediction, and of row `r`'s target. -/
def pidx (n : ℕ) (q : Fin 2048) : Fin 16384 := ⟨(n / 16 % 8) * 2048 + q.val, by have := q.isLt; omega⟩
def tidx (n : ℕ) (r : Fin 1024) : Fin 16384 := ⟨(n % 16) * 1024 + r.val, by have := r.isLt; omega⟩

/-- The windows' block indices, decided over the grid. -/
theorem idx_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = t.val / 16 :=
  (by decide +kernel : ∀ t : Fin grid0.N, _)

theorem pblk_apply (c : Dev nD) (t : Fin cfg0.N) (q : Fin 2048) (d : Fin 3) :
    pblk m c t (ix2 q d) = Parr m c (ix2 (pidx t.val q) d) := by
  have hN : t.val < 128 := lt_of_lt_of_eq t.isLt (show cfg0.N = 128 from N_0)
  obtain ⟨e0, e1, -⟩ := idx_facts t
  unfold pblk iblk
  rw [View.read_apply]
  show V m c main_arg0 _ = V m c main_arg0 _
  congr 1
  funext a
  apply Fin.ext
  match a with
  | ⟨0, _⟩ => show win0_0.index t (0 : Fin 2) * 2048 + 1 * q.val = (t.val / 16 % 8) * 2048 + q.val; rw [e0]; omega
  | ⟨1, _⟩ => show win0_0.index t (1 : Fin 2) * 3 + 1 * d.val = d.val; rw [e1]; omega

theorem tblk_apply (c : Dev nD) (t : Fin cfg0.N) (r : Fin 1024) (d : Fin 3) :
    tblk m c t (ix2 r d) = Tarr m c (ix2 (tidx t.val r) d) := by
  obtain ⟨-, -, e0, e1, -⟩ := idx_facts t
  unfold tblk iblk
  rw [View.read_apply]
  show V m c main_arg1 _ = V m c main_arg1 _
  congr 1
  funext a
  apply Fin.ext
  match a with
  | ⟨0, _⟩ => show win0_1.index t (0 : Fin 2) * 1024 + 1 * r.val = (t.val % 16) * 1024 + r.val; rw [e0]; omega
  | ⟨1, _⟩ => show win0_1.index t (1 : Fin 2) * 3 + 1 * d.val = d.val; rw [e1]; omega

/-! ## What the scratch holds after a point, by the point's case -/

theorem scr_A (c : Dev nD) (t : Fin cfg0.N) (h0 : t.val % 16 = 0) (h1 : ¬t.val % 16 = 15) :
    (outsAt0 m c t.val t.isLt).2 = k0_pay2 (pblk m c t) (tblk m c t) (k0_pay1 (F := Ideal)) := by
  rw [outsAt0_A m c t h0 h1]
  dsimp only
  exact Pieces.sout_A c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (pblk m c t) (tblk m c t)

theorem scr_B (c : Dev nD) (t : Fin cfg0.N) (h0 : ¬t.val % 16 = 0) (h1 : ¬t.val % 16 = 15) :
    (outsAt0 m c t.val t.isLt).2
      = k0_pay2 (pblk m c t) (tblk m c t) (outsAt0 m c (t.val - 1) (Nat.lt_of_le_of_lt (Nat.sub_le _ _) t.isLt)).2 := by
  rw [outsAt0_B m c t h0 h1]
  dsimp only
  exact Pieces.sout_B c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (pblk m c t) (tblk m c t)
    (outsAt0 m c (t.val - 1) (Nat.lt_of_le_of_lt (Nat.sub_le _ _) t.isLt)).2

theorem scr_C (c : Dev nD) (t : Fin cfg0.N) (h0 : ¬t.val % 16 = 0) (h1 : t.val % 16 = 15) :
    (outsAt0 m c t.val t.isLt).2
      = k0_pay2 (pblk m c t) (tblk m c t) (outsAt0 m c (t.val - 1) (Nat.lt_of_le_of_lt (Nat.sub_le _ _) t.isLt)).2 := by
  rw [outsAt0_C m c t h0 h1]
  dsimp only
  exact Pieces.sout_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (pblk m c t) (tblk m c t)
    (outsAt0 m c (t.val - 1) (Nat.lt_of_le_of_lt (Nat.sub_le _ _) t.isLt)).2

/-- At the last point of a sweep the output block is the scratch. -/
theorem out_C_eq (c : Dev nD) (t : Fin cfg0.N) (h0 : ¬t.val % 16 = 0) (h1 : t.val % 16 = 15) :
    (outsAt0 m c t.val t.isLt).1 = (outsAt0 m c t.val t.isLt).2 := by
  rw [outsAt0_C m c t h0 h1]
  dsimp only
  rw [Pieces.out_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (pblk m c t) (tblk m c t)
    (outsAt0 m c (t.val - 1) (Nat.lt_of_le_of_lt (Nat.sub_le _ _) t.isLt)).2]
  exact (Pieces.sout_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (pblk m c t) (tblk m c t)
    (outsAt0 m c (t.val - 1) (Nat.lt_of_le_of_lt (Nat.sub_le _ _) t.isLt)).2).symm

/-! ## One update, read at a lane -/

/-- If lane `q` of the running minimum holds the least distance of its prediction to the targets before this point's
    block, the update leaves there the least distance to the targets up to and including this point's block. -/
theorem step (c : Dev nD) (t : Fin cfg0.N) (acc : Vec Ideal S1x2048 .f32) (u : Fin 1) (q : Fin 2048)
    (hacc : acc (ix2 u q) = pmin (Parr m c) (Tarr m c) (pidx t.val q) ((t.val % 16) * 1024)) :
    k0_pay2 (F := Ideal) (pblk m c t) (tblk m c t) acc (ix2 u q)
      = pmin (Parr m c) (Tarr m c) (pidx t.val q) ((t.val % 16 + 1) * 1024) := by
  rw [Payload.pay2_apply, hacc]
  have hs := min_pmin_block (Parr m c) (Tarr m c) (pidx t.val q) ((t.val % 16) * 1024) (by omega)
    (fun r : Fin 1024 => cell (fun d : Fin 3 => pblk m c t (ix2 q d)) (fun d : Fin 3 => tblk m c t (ix2 r d)))
    (fun r => by
      simp only [pblk_apply, tblk_apply]
      rfl)
  rw [hs]
  congr 1
  omega

/-! ## The running minimum, point by point -/

/-- After grid point `n`, lane `q` of the scratch holds the least distance of prediction `q` of block `n / 16` to the
    targets of the blocks `0 … n % 16`: by induction on the point — a sweep's first point starts from `+∞`, every
    other point extends what the point before left. -/
theorem scratch_eq (c : Dev nD) : ∀ (n : ℕ) (h : n < cfg0.N) (u : Fin 1) (q : Fin 2048),
    (outsAt0 m c n h).2 (ix2 u q) = pmin (Parr m c) (Tarr m c) (pidx n q) ((n % 16 + 1) * 1024) := by
  intro n
  induction n using Nat.strong_induction_on with
  | _ n ih =>
    intro h u q
    have hN : n < 128 := lt_of_lt_of_eq h (show cfg0.N = 128 from N_0)
    by_cases h0 : n % 16 = 0
    · have h1 : ¬n % 16 = 15 := by omega
      rw [show (outsAt0 m c n h).2 = _ from scr_A m c ⟨n, h⟩ h0 h1]
      refine step m c ⟨n, h⟩ _ u q ?_
      rw [Payload.pay1_apply]
      show (⊤ : EReal) = pmin _ _ _ (n % 16 * 1024)
      rw [h0, Nat.zero_mul, pmin_zero]
    · have hk : (outsAt0 m c n h).2
          = k0_pay2 (pblk m c ⟨n, h⟩) (tblk m c ⟨n, h⟩) (outsAt0 m c (n - 1) (Nat.lt_of_le_of_lt (Nat.sub_le _ _) h)).2 := by
        by_cases h1 : n % 16 = 15
        · exact scr_C m c ⟨n, h⟩ h0 h1
        · exact scr_B m c ⟨n, h⟩ h0 h1
      rw [hk]
      refine step m c ⟨n, h⟩ _ u q ?_
      rw [ih (n - 1) (by omega) _ u q]
      have e1 : pidx (n - 1) q = pidx n q := Fin.ext (by
        show ((n - 1) / 16 % 8) * 2048 + q.val = (n / 16 % 8) * 2048 + q.val
        omega)
      have e2 : ((n - 1) % 16 + 1) * 1024 = n % 16 * 1024 := by omega
      rw [e1, e2]

/-- So at the last point of a sweep the output block's lane `q` holds the least distance of its prediction to ALL
    the targets. -/
theorem out_eq (c : Dev nD) (t : Fin cfg0.N) (h1 : t.val % 16 = 15) (u : Fin 1) (q : Fin 2048) :
    (outsAt0 m c t.val t.isLt).1 (ix2 u q) = rowmin (Parr m c) (Tarr m c) (pidx t.val q) := by
  have h0 : ¬t.val % 16 = 0 := by omega
  rw [out_C_eq m c t h0 h1, scratch_eq m c t.val t.isLt u q, h1]
  exact pmin_full _ _ _

end Cert.KernelIdeal.Inv

end
-- ==== Proof.KernelRun.lean ====
/-
  From the blocks to the array, and from the array to the result.

  The output window is written back only at the last point of each sweep, and the eight blocks written tile the
  [1, 16384] result array: lane `q` of block `I` is prediction `2048·I + q`. So after the region the array holds every
  prediction's nearest-target distance. The host then sums the array from the zero word, divides by the word of
  16384 and multiplies by the word of one; a sum over the [1, 16384] index set is the sum over the 16384 predictions.
-/
import proofs.«159871_j48172353192475_1_alg».proof.Proof.KernelInv
import Idealize.ShloMosaic.Lib.Pipeline.Value
import Idealize.ShloMosaic.Lib.StableHlo.Run
import Idealize.ShloMosaic.PureOps.Ideal.Laws
import Idealize.ShloMosaic.Lib.ValueIdx

noncomputable section

namespace Cert.KernelIdeal.Run

open Cert.KernelIdeal Cert.KernelIdeal.Gen Cert.KernelIdeal.Inv Cert.Chamfer
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The array the region leaves -/

/-- The nearest-target distance of every prediction, as a [1, 16384] array. -/
abbrev Garr (c : Dev nD) : S1x16384.Idx → EReal := fun i => rowmin (Parr m c) (Tarr m c) (i 1)

/-- The output block at a sweep's last point, read at any index of the block. -/
theorem out_at (c : Dev nD) (t : Fin cfg0.N) (h15 : t.val % 16 = 15) (j : S1x2048.Idx) :
    (outsAt0 m c t.val t.isLt).1 j = rowmin (Parr m c) (Tarr m c) (pidx t.val (j 1)) :=
  (congrArg (outsAt0 m c t.val t.isLt).1 (eq_ix2 j)).trans (out_eq m c t h15 (j 0) (j 1))

/-- What a sweep's last point writes back is its block of that array: lane `q` of output block `I` is prediction
    `2048·I + q`. -/
theorem flushed_eq (c : Dev nD) (t : Fin cfg0.N) (hf : (cfg0.win 2).flush t = true) :
    (dats m 0 c).flushed 2 t = ((cfg0.win 2).blk t).view.read (Elt Ideal) (Garr m c) := by
  have h15 : t.val % 16 = 15 := (flush0_2 t).mp hf
  have hN : t.val < 128 := lt_of_lt_of_eq t.isLt (show cfg0.N = 128 from N_0)
  obtain ⟨-, -, -, -, e0, e1⟩ := idx_facts t
  show (cfg0.win 2).cut (grid0.coords t) ((dats m 0 c).after 2 t) = _
  rw [after0_2]
  funext j
  rw [View.read_apply]
  refine (out_at m c t h15 j).trans ?_
  refine congrArg (rowmin (Parr m c) (Tarr m c)) (Fin.ext ?_)
  show (t.val / 16 % 8) * 2048 + (j 1).val = win0_2.index t (1 : Fin 2) * 2048 + 1 * (j 1).val
  rw [e1]
  omega

/-- An index of the array is in point `t`'s block iff each coordinate is in the block's range on its axis. -/
theorem mem_blk (t : Fin cfg0.N) (i : S1x16384.Idx) :
    i ∈ ((cfg0.win 2).blk t).view.set ↔ ∀ a : Fin 2, win0_2.index t a * S1x2048.size a ≤ (i a).val ∧ (i a).val < win0_2.index t a * S1x2048.size a + S1x2048.size a := by
  show i ∈ ((View.whole main_v0).slice (win0_2.rect t)).set ↔ _
  rw [View.set_slice_whole, Rect.mem_set_unit]
  exact Iff.rfl

/-- Every prediction's lane is written back: prediction `i` by the last point of sweep `i / 2048`. -/
theorem cover (i : S1x16384.Idx) :
    ∃ t : Fin cfg0.N, (cfg0.win 2).flush t = true ∧ i ∈ ((cfg0.win 2).blk t).view.set := by
  have hi0 : (i 0).val < 1 := (i 0).isLt
  have hi1 : (i 1).val < 16384 := (i 1).isLt
  have hlt : ((i 1).val / 2048) * 16 + 15 < cfg0.N := by rw [show cfg0.N = 128 from N_0]; omega
  obtain ⟨-, -, -, -, e0, e1⟩ := idx_facts ⟨((i 1).val / 2048) * 16 + 15, hlt⟩
  refine ⟨⟨((i 1).val / 2048) * 16 + 15, hlt⟩, (flush0_2 _).mpr (by show (((i 1).val / 2048) * 16 + 15) % 16 = 15; omega), ?_⟩
  rw [mem_blk]
  intro a
  match a with
  | ⟨0, _⟩ =>
    show win0_2.index ⟨((i 1).val / 2048) * 16 + 15, hlt⟩ (0 : Fin 2) * 1 ≤ (i 0).val ∧ (i 0).val < win0_2.index ⟨((i 1).val / 2048) * 16 + 15, hlt⟩ (0 : Fin 2) * 1 + 1
    rw [e0]; omega
  | ⟨1, _⟩ =>
    show win0_2.index ⟨((i 1).val / 2048) * 16 + 15, hlt⟩ (1 : Fin 2) * 2048 ≤ (i 1).val ∧ (i 1).val < win0_2.index ⟨((i 1).val / 2048) * 16 + 15, hlt⟩ (1 : Fin 2) * 2048 + 2048
    rw [e1]
    show (((i 1).val / 2048) * 16 + 15) / 16 * 2048 ≤ (i 1).val ∧ (i 1).val < (((i 1).val / 2048) * 16 + 15) / 16 * 2048 + 2048
    omega

/-- So after the region the result array holds every prediction's nearest-target distance. -/
theorem final (c : Dev nD) : (dats m 0 c).arrAt 2 cfg0.N = Garr m c :=
  (dats m 0 c).arrAt_eq_of_cover 2 (Garr m c) (flushed_eq m c) cover

/-! ## The host operations after the region, and the run -/

/-- The host's sum of the [1, 16384] array from the zero word is the zero word plus the sum over the predictions. -/
theorem total_eq (c : Dev nD) :
    Host.reduceAdd (F := Ideal) (Garr m c) (constant S_ .f32 0x00000000#32) reducesTo_S1x16384_S_d0_1 h_S_
      = fun _ => Ideal.ofBits .f32 0x00000000#32 + ∑ i : Fin 16384, rowmin (Parr m c) (Tarr m c) i := by
  funext j
  simp only [Host.reduceAdd, Ideal.hostReduceAdd_def]
  rw [Ideal.hostReduceAdd_total reducesTo_S1x16384_S_d0_1 (fun b => b.elim0) (Garr m c) _ j, sum_idx2]
  simp only [Fin.sum_univ_one]
  rfl

/-- After the region the host sums the array, divides by the word of 16384 and multiplies by the word of one: the
    result is the loss. -/
theorem result_eq (c : Dev nD) :
    Pipeline.afterTail₀ cfgs (dats m) 0 (V0 m) [hostOps1] c main_v3 = fun _ => loss (Parr m c) (Tarr m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v0)
      = Garr m c := (Pipeline.withArrays_arr spec0 launch0.win.arr_inj c _ _ 2).trans (final m c)
  rw [hw, total_eq]
  funext j
  rfl

/-- The result buffer is none of the region's three arrays, so the run's post states it after the host operations. -/
theorem mem_v3 : main_v3 ∈ Pipeline.restRefs sig (cfgs 0).spec :=
  Pipeline.mem_restRefs_of main_v3 rfl (fun w => by fin_cases w <;> decide)

/-- THE RUN, READ: every weakly fair execution ends with the result at the loss of the argument arrays, which are
    unchanged. -/
theorem run : θ_run defs (onTc (τ := τ) (main (F := Ideal))) ⟨m, fun _ => 0, ρ⟩ fun r => ∀ c : Dev nD,
      r.2.mem ((c.tc : Thread nD τ).loc main_v3) = (fun _ => loss (Parr m c) (Tarr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 mem_v3).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.lean ====
/-
  The certificate of the one-directional Chamfer loss: a tiled kernel that keeps a running minimum of point
  distances in a scratch block, against the plain reference that builds the whole distance matrix.

  Both compute, for 16384 predictions and 16384 targets in three coordinates, the mean over the predictions of the
  least distance `sqrt (max (|t|² + |p|² - 2⟨t, p⟩) 0)` to a target (Proof/ChamferSpec.lean). The kernel sweeps the
  targets 1024 at a time for each block of 2048 predictions; that its running minimum ends at the infimum over all
  targets is an induction over the grid's points (Proof/KernelInv.lean, over the body's arithmetic read at a lane in
  Proof/KernelPayload.lean and the stored pieces read back in Proof/KernelPieces.lean), and the blocks written back
  tile the result array, which the host then averages (Proof/KernelRun.lean). The reference's matrix entry is the
  same distance up to the order of a sum's two terms and of each product's factors, and its row minimum is the same
  infimum (Proof/RefValue.lean). No step needs the inputs to be finite: only commutativity of `+` and `·` and the
  universal property of a minimum are used, which hold on all extended reals.

  The three frames are the generated ones (the reference's is its run with the result dropped); the idealization
  rewrote nothing, so `preserves` is `True`.
-/
import proofs.«159871_j48172353192475_1_alg».proof.Defs
import proofs.«159871_j48172353192475_1_alg».proof.Proof.Gen.Kernel
import proofs.«159871_j48172353192475_1_alg».proof.Proof.Gen.Kernel.Frame
import proofs.«159871_j48172353192475_1_alg».proof.Proof.Gen.KernelIdeal
import proofs.«159871_j48172353192475_1_alg».proof.Proof.Gen.KernelIdeal.Frame
import proofs.«159871_j48172353192475_1_alg».proof.Proof.Gen.ReferenceIdeal
import proofs.«159871_j48172353192475_1_alg».proof.Proof.Gen.ReferenceIdeal.Run
import proofs.«159871_j48172353192475_1_alg».proof.Proof.Gen.ReferenceIdeal.Read
import proofs.«159871_j48172353192475_1_alg».proof.Proof.Gen.Pre_finite_inputs
import proofs.«159871_j48172353192475_1_alg».proof.Proof.RefValue
import proofs.«159871_j48172353192475_1_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the loss of the argument arrays, which agree. -/
theorem algebraic : Cert.algebraic_KernelIdeal_ReferenceIdeal := by
  intro m ρ m' ρ' _ hagree
  refine ⟨fun c => fun _ => Cert.Chamfer.loss (Cert.KernelIdeal.Inv.Parr m c) (Cert.KernelIdeal.Inv.Tarr m c),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
